-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v47)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v47) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v50) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x256 : Shape := ⟨2, ![100000, 256]⟩
abbrev S2x3200000 : Shape := ⟨2, ![2, 3200000]⟩
abbrev S256x16 : Shape := ⟨2, ![256, 16]⟩
abbrev S16 : Shape := ⟨1, ![16]⟩
abbrev S16x1 : Shape := ⟨2, ![16, 1]⟩
abbrev S1 : Shape := ⟨1, ![1]⟩
abbrev S_ : Shape := ⟨0, ![]⟩

class Facts : Prop where
  bcast_S_S100000x256 : S_.BroadcastsInDim S100000x256 (![] : Fin 0 → Fin S100000x256.rank)
  reducesTo_S100000x256_S_d0_1 : S100000x256.ReducesTo [0, 1] S_
  h_S_ : 0 < S_.numel
  bcast_S_S256x16 : S_.BroadcastsInDim S256x16 (![] : Fin 0 → Fin S256x16.rank)
  reducesTo_S256x16_S_d0_1 : S256x16.ReducesTo [0, 1] S_
  bcast_S_S16 : S_.BroadcastsInDim S16 (![] : Fin 0 → Fin S16.rank)
  reducesTo_S16_S_d0 : S16.ReducesTo [0] S_
  bcast_S_S16x1 : S_.BroadcastsInDim S16x1 (![] : Fin 0 → Fin S16x1.rank)
  reducesTo_S16x1_S_d0_1 : S16x1.ReducesTo [0, 1] S_
  bcast_S_S1 : S_.BroadcastsInDim S1 (![] : Fin 0 → Fin S1.rank)
  reducesTo_S1_S_d0 : S1.ReducesTo [0] S_

variable [Facts]

def fn_part1 {F : FTy → Type} [FloatOps F] (main_arg5 : FVec F S1 .f32) (main_v13 : IVec S_ 1) (main_v16 : IVec S16x1 1) : IVec S_ 1 :=
  let main_c_5 : IVec S_ 1 := constantI S_ 1 1#1
  let main_v17 : IVec S_ 1 := (fun x v => Host.reduce IntOp.andi x v reducesTo_S16x1_S_d0_1 h_S_) main_v16 main_c_5
  let main_v18 : IVec S_ 1 := andi main_v13 main_v17
  let main_v19 : FVec F S1 .f32 := Host.absf main_arg5
  let main_cst_6 : FVec F S_ .f32 := constant S_ .f32 0x7F800000#32
  let main_v20 : FVec F S1 .f32 := broadcastInDim S1 ![] bcast_S_S1 main_cst_6
  let main_v21 : IVec S1 1 := cmpf .olt main_v19 main_v20
  let main_c_7 : IVec S_ 1 := constantI S_ 1 1#1
  let main_v22 : IVec S_ 1 := (fun x v => Host.reduce IntOp.andi x v reducesTo_S1_S_d0 h_S_) main_v21 main_c_7
  let main_v23 : IVec S_ 1 := andi main_v18 main_v22
  main_v23

def fn {F : FTy → Type} [FloatOps F] (main_arg0 : FVec F S100000x256 .f32) (main_arg1 : IVec S2x3200000 32) (main_arg2 : FVec F S256x16 .f32) (main_arg3 : FVec F S16 .f32) (main_arg4 : FVec F S16x1 .f32) (main_arg5 : FVec F S1 .f32) : IVec S_ 1 :=
  let main_v0 : FVec F S100000x256 .f32 := Host.absf main_arg0
  let main_cst : FVec F S_ .f32 := constant S_ .f32 0x7F800000#32
  let main_v1 : FVec F S100000x256 .f32 := broadcastInDim S100000x256 ![] bcast_S_S100000x256 main_cst
  let main_v2 : IVec S100000x256 1 := cmpf .olt main_v0 main_v1
  let main_c : IVec S_ 1 := constantI S_ 1 1#1
  let main_v3 : IVec S_ 1 := (fun x v => Host.reduce IntOp.andi x v reducesTo_S100000x256_S_d0_1 h_S_) main_v2 main_c
  let main_v4 : FVec F S256x16 .f32 := Host.absf main_arg2
  let main_cst_0 : FVec F S_ .f32 := constant S_ .f32 0x7F800000#32
  let main_v5 : FVec F S256x16 .f32 := broadcastInDim S256x16 ![] bcast_S_S256x16 main_cst_0
  let main_v6 : IVec S256x16 1 := cmpf .olt main_v4 main_v5
  let main_c_1 : IVec S_ 1 := constantI S_ 1 1#1
  let main_v7 : IVec S_ 1 := (fun x v => Host.reduce IntOp.andi x v reducesTo_S256x16_S_d0_1 h_S_) main_v6 main_c_1
  let main_v8 : IVec S_ 1 := andi main_v3 main_v7
  let main_v9 : FVec F S16 .f32 := Host.absf main_arg3
  let main_cst_2 : FVec F S_ .f32 := constant S_ .f32 0x7F800000#32
  let main_v10 : FVec F S16 .f32 := broadcastInDim S16 ![] bcast_S_S16 main_cst_2
  let main_v11 : IVec S16 1 := cmpf .olt main_v9 main_v10
  let main_c_3 : IVec S_ 1 := constantI S_ 1 1#1
  let main_v12 : IVec S_ 1 := (fun x v => Host.reduce IntOp.andi x v reducesTo_S16_S_d0 h_S_) main_v11 main_c_3
  let main_v13 : IVec S_ 1 := andi main_v8 main_v12
  let main_v14 : FVec F S16x1 .f32 := Host.absf main_arg4
  let main_cst_4 : FVec F S_ .f32 := constant S_ .f32 0x7F800000#32
  let main_v15 : FVec F S16x1 .f32 := broadcastInDim S16x1 ![] bcast_S_S16x1 main_cst_4
  let main_v16 : IVec S16x1 1 := cmpf .olt main_v14 main_v15
  fn_part1 (F := F) main_arg5 main_v13 main_v16
-- ==== Kernel.lean ====
abbrev S100000x256 : Shape := ⟨2, ![100000, 256]⟩
abbrev S2x3200000 : Shape := ⟨2, ![2, 3200000]⟩
abbrev S256x16 : Shape := ⟨2, ![256, 16]⟩
abbrev S16 : Shape := ⟨1, ![16]⟩
abbrev S16x1 : Shape := ⟨2, ![16, 1]⟩
abbrev S1 : Shape := ⟨1, ![1]⟩
abbrev S100000x16 : Shape := ⟨2, ![100000, 16]⟩
abbrev S10000x256 : Shape := ⟨2, ![10000, 256]⟩
abbrev S10000x16 : Shape := ⟨2, ![10000, 16]⟩
abbrev S100000 : Shape := ⟨1, ![100000]⟩
abbrev S1x3200000 : Shape := ⟨2, ![1, 3200000]⟩
abbrev S3200000 : Shape := ⟨1, ![3200000]⟩
abbrev S3300000 : Shape := ⟨1, ![3300000]⟩
abbrev S_ : Shape := ⟨0, ![]⟩
abbrev S3300000x1 : Shape := ⟨2, ![3300000, 1]⟩
abbrev S3300000x16 : Shape := ⟨2, ![3300000, 16]⟩
abbrev S1x16 : Shape := ⟨2, ![1, 16]⟩
abbrev S100000x1 : Shape := ⟨2, ![100000, 1]⟩
abbrev S25000x16 : Shape := ⟨2, ![25000, 16]⟩
abbrev S25000x1 : Shape := ⟨2, ![25000, 1]⟩
abbrev S1x1 : Shape := ⟨2, ![1, 1]⟩

abbrev nBuf : Space → Nat
  | .hbm => 67
  | .vmem => 11
  | .smem => 0
  | _ => 0

abbrev bufTy : (tb : Table) → Fin (tcTables nBuf tb) → BufTy
  | .hbm, ⟨0, _⟩ => ⟨S100000x256, .f32⟩
  | .hbm, ⟨1, _⟩ => ⟨S2x3200000, .i32⟩
  | .hbm, ⟨2, _⟩ => ⟨S256x16, .f32⟩
  | .hbm, ⟨3, _⟩ => ⟨S16, .f32⟩
  | .hbm, ⟨4, _⟩ => ⟨S16x1, .f32⟩
  | .hbm, ⟨5, _⟩ => ⟨S1, .f32⟩
  | .hbm, ⟨6, _⟩ => ⟨S100000x16, .f32⟩
  | .hbm, ⟨7, _⟩ => ⟨S100000, .i32⟩
  | .hbm, ⟨8, _⟩ => ⟨S1x3200000, .i32⟩
  | .hbm, ⟨9, _⟩ => ⟨S3200000, .i32⟩
  | .hbm, ⟨10, _⟩ => ⟨S3300000, .i32⟩
  | .hbm, ⟨11, _⟩ => ⟨S1x3200000, .i32⟩
  | .hbm, ⟨12, _⟩ => ⟨S3200000, .i32⟩
  | .hbm, ⟨13, _⟩ => ⟨S3300000, .i32⟩
  | .hbm, ⟨14, _⟩ => ⟨S_, .f32⟩
  | .hbm, ⟨15, _⟩ => ⟨S3300000, .f32⟩
  | .hbm, ⟨16, _⟩ => ⟨S_, .f32⟩
  | .hbm, ⟨17, _⟩ => ⟨S100000, .f32⟩
  | .hbm, ⟨18, _⟩ => ⟨S3300000x1, .i32⟩
  | .hbm, ⟨19, _⟩ => ⟨S100000, .f32⟩
  | .hbm, ⟨20, _⟩ => ⟨S_, .f32⟩
  | .hbm, ⟨21, _⟩ => ⟨S100000, .f32⟩
  | .hbm, ⟨22, _⟩ => ⟨S100000, .i1⟩
  | .hbm, ⟨23, _⟩ => ⟨S100000, .f32⟩
  | .hbm, ⟨24, _⟩ => ⟨S_, .f32⟩
  | .hbm, ⟨25, _⟩ => ⟨S_, .f32⟩
  | .hbm, ⟨26, _⟩ => ⟨S100000, .f32⟩
  | .hbm, ⟨27, _⟩ => ⟨S100000, .f32⟩
  | .hbm, ⟨28, _⟩ => ⟨S_, .i32⟩
  | .hbm, ⟨29, _⟩ => ⟨S3300000, .i32⟩
  | .hbm, ⟨30, _⟩ => ⟨S3300000, .i1⟩
  | .hbm, ⟨31, _⟩ => ⟨S_, .i32⟩
  | .hbm, ⟨32, _⟩ => ⟨S3300000, .i32⟩
  | .hbm, ⟨33, _⟩ => ⟨S3300000, .i32⟩
  | .hbm, ⟨34, _⟩ => ⟨S3300000, .i32⟩
  | .hbm, ⟨35, _⟩ => ⟨S3300000x1, .i32⟩
  | .hbm, ⟨36, _⟩ => ⟨S3300000, .f32⟩
  | .hbm, ⟨37, _⟩ => ⟨S_, .i32⟩
  | .hbm, ⟨38, _⟩ => ⟨S3300000, .i32⟩
  | .hbm, ⟨39, _⟩ => ⟨S3300000, .i1⟩
  | .hbm, ⟨40, _⟩ => ⟨S_, .i32⟩
  | .hbm, ⟨41, _⟩ => ⟨S3300000, .i32⟩
  | .hbm, ⟨42, _⟩ => ⟨S3300000, .i32⟩
  | .hbm, ⟨43, _⟩ => ⟨S3300000, .i32⟩
  | .hbm, ⟨44, _⟩ => ⟨S3300000x1, .i32⟩
  | .hbm, ⟨45, _⟩ => ⟨S3300000, .f32⟩
  | .hbm, ⟨46, _⟩ => ⟨S3300000, .f32⟩
  | .hbm, ⟨47, _⟩ => ⟨S_, .i32⟩
  | .hbm, ⟨48, _⟩ => ⟨S3300000, .i32⟩
  | .hbm, ⟨49, _⟩ => ⟨S3300000, .i1⟩
  | .hbm, ⟨50, _⟩ => ⟨S_, .i32⟩
  | .hbm, ⟨51, _⟩ => ⟨S3300000, .i32⟩
  | .hbm, ⟨52, _⟩ => ⟨S3300000, .i32⟩
  | .hbm, ⟨53, _⟩ => ⟨S3300000, .i32⟩
  | .hbm, ⟨54, _⟩ => ⟨S3300000x1, .i32⟩
  | .hbm, ⟨55, _⟩ => ⟨S3300000x16, .f32⟩
  | .hbm, ⟨56, _⟩ => ⟨S3300000x1, .f32⟩
  | .hbm, ⟨57, _⟩ => ⟨S3300000x16, .f32⟩
  | .hbm, ⟨58, _⟩ => ⟨S3300000x16, .f32⟩
  | .hbm, ⟨59, _⟩ => ⟨S_, .f32⟩
  | .hbm, ⟨60, _⟩ => ⟨S100000x16, .f32⟩
  | .hbm, ⟨61, _⟩ => ⟨S3300000x1, .i32⟩
  | .hbm, ⟨62, _⟩ => ⟨S100000x16, .f32⟩
  | .hbm, ⟨63, _⟩ => ⟨S1x16, .f32⟩
  | .hbm, ⟨64, _⟩ => ⟨S100000x16, .f32⟩
  | .hbm, ⟨65, _⟩ => ⟨S100000x16, .f32⟩
  | .hbm, ⟨66, _⟩ => ⟨S100000x1, .f32⟩
  | .local _ .vmem, ⟨0, _⟩ => ⟨S10000x256, .f32⟩
  | .local _ .vmem, ⟨1, _⟩ => ⟨S10000x256, .f32⟩
  | .local _ .vmem, ⟨2, _⟩ => ⟨S256x16, .f32⟩
  | .local _ .vmem, ⟨3, _⟩ => ⟨S10000x16, .f32⟩
  | .local _ .vmem, ⟨4, _⟩ => ⟨S10000x16, .f32⟩
  | .local _ .vmem, ⟨5, _⟩ => ⟨S25000x16, .f32⟩
  | .local _ .vmem, ⟨6, _⟩ => ⟨S25000x16, .f32⟩
  | .local _ .vmem, ⟨7, _⟩ => ⟨S16x1, .f32⟩
  | .local _ .vmem, ⟨8, _⟩ => ⟨S1, .f32⟩
  | .local _ .vmem, ⟨9, _⟩ => ⟨S25000x1, .f32⟩
  | .local _ .vmem, ⟨10, _⟩ => ⟨S25000x1, .f32⟩
  | _, _ => ⟨S100000x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_cst : Ref sig .tc := ⟨.hbm, 14, rfl⟩
abbrev main_v8 : Ref sig .tc := ⟨.hbm, 15, rfl⟩
abbrev main_cst_0 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_cst_1 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_cst_2 : Ref sig .tc := ⟨.hbm, 24, rfl⟩
abbrev main_call0_v0 : Ref sig .tc := ⟨.hbm, 25, rfl⟩
abbrev main_call0_v1 : Ref sig .tc := ⟨.hbm, 26, rfl⟩
abbrev main_v15 : Ref sig .tc := ⟨.hbm, 27, rfl⟩
abbrev main_c : Ref sig .tc := ⟨.hbm, 28, rfl⟩
abbrev main_v16 : Ref sig .tc := ⟨.hbm, 29, rfl⟩
abbrev main_v17 : Ref sig .tc := ⟨.hbm, 30, rfl⟩
abbrev main_c_3 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_c_4 : Ref sig .tc := ⟨.hbm, 37, rfl⟩
abbrev main_v23 : Ref sig .tc := ⟨.hbm, 38, rfl⟩
abbrev main_v24 : Ref sig .tc := ⟨.hbm, 39, rfl⟩
abbrev main_c_5 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_c_6 : Ref sig .tc := ⟨.hbm, 47, rfl⟩
abbrev main_v31 : Ref sig .tc := ⟨.hbm, 48, rfl⟩
abbrev main_v32 : Ref sig .tc := ⟨.hbm, 49, rfl⟩
abbrev main_c_7 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_cst_8 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_v47 : Ref sig .tc := ⟨.hbm, 66, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg3_0 : Ref sig .tc := ⟨.vmem, 9, rfl⟩
abbrev cc1_stg3_1 : Ref sig .tc := ⟨.vmem, 10, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem3_0 : DmaSem sig := 9
abbrev cc1_sem3_1 : DmaSem sig := 10

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S10000x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S256x16 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S10000x16 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![4], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S25000x16 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S16x1 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S1 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S25000x1 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

class Facts₀ : Prop where
  inb_S10000x256_S10000x256_0_0 : ∀ a, (![0, 0] : Fin 2 → Nat) a + S10000x256.size a ≤ S10000x256.size a
  h_S10000x256 : 0 < S10000x256.numel
  bitsLt_bf16_f32 : FTy.bits .bf16 < FTy.bits .f32
  inb_S256x16_S256x16_0_0 : ∀ a, (![0, 0] : Fin 2 → Nat) a + S256x16.size a ≤ S256x16.size a
  h_S256x16 : 0 < S256x16.numel
  inb_S10000x16_S10000x16_0_0 : ∀ a, (![0, 0] : Fin 2 → Nat) a + S10000x16.size a ≤ S10000x16.size a
  h_S10000x16 : 0 < S10000x16.numel
  slices_S2x3200000_S1x3200000_0_0 : S2x3200000.Slices ![0, 0] S1x3200000
  shapeCasts_S1x3200000_S3200000 : S1x3200000.ShapeCasts S3200000
  concatenates_S3200000_S100000_S3300000_d0 : Shape.Concatenates [S3200000, S100000] S3300000 0
  slices_S2x3200000_S1x3200000_1_0 : S2x3200000.Slices ![1, 0] S1x3200000
  bcast_S_S3300000 : S_.BroadcastsInDim S3300000 (![] : Fin 0 → Fin S3300000.rank)
  bcast_S_S100000 : S_.BroadcastsInDim S100000 (![] : Fin 0 → Fin S100000.rank)
  bcast_S3300000_S3300000x1_0 : S3300000.BroadcastsInDim S3300000x1 (![0] : Fin 1 → Fin S3300000x1.rank)
  bcast_S3300000x1_S3300000x16_0_1 : S3300000x1.BroadcastsInDim S3300000x16 (![0, 1] : Fin 2 → Fin S3300000x16.rank)
  bcast_S_S100000x16 : S_.BroadcastsInDim S100000x16 (![] : Fin 0 → Fin S100000x16.rank)
  bcast_S16_S1x16_1 : S16.BroadcastsInDim S1x16 (![1] : Fin 1 → Fin S1x16.rank)
  bcast_S1x16_S100000x16_0_1 : S1x16.BroadcastsInDim S100000x16 (![0, 1] : Fin 2 → Fin S100000x16.rank)
  inb_S25000x16_S25000x16_0_0 : ∀ a, (![0, 0] : Fin 2 → Nat) a + S25000x16.size a ≤ S25000x16.size a
  h_S25000x16 : 0 < S25000x16.numel
  shapeCasts_S25000x16_S25000x16 : S25000x16.ShapeCasts S25000x16
  inb_S16x1_S16x1_0_0 : ∀ a, (![0, 0] : Fin 2 → Nat) a + S16x1.size a ≤ S16x1.size a
  h_S16x1 : 0 < S16x1.numel
  inb_S1_S1_0 : ∀ a, (![0] : Fin 1 → Nat) a + S1.size a ≤ S1.size a
  h_S1 : 0 < S1.numel
  shapeCasts_S1_S1x1 : S1.ShapeCasts S1x1
  broadcasts_S1x1_S25000x1 : S1x1.Broadcasts S25000x1
  inb_S25000x1_S25000x1_0_0 : ∀ a, (![0, 0] : Fin 2 → Nat) a + S25000x1.size a ≤ S25000x1.size a
  h_S25000x1 : 0 < S25000x1.numel
  dot_S10000x256_S256x16_S10000x16_1_0_0_1_n_n_wf : DotDims.WF S10000x256 S256x16 S10000x16 [1] [0] [0] [1] [] []
  scatter_S100000_S3300000x1_S3300000_n_0_0_1_wf : ScatterDims.WF S100000 S3300000x1 S3300000 [] [0] [0] 1
  gather_S100000_S3300000x1_S3300000_n_0_n_n_0_1_1_wf : GatherDims.WF S100000 S3300000x1 S3300000 [] [0] [] [0] [] 1 ![1]
  gather_S100000x16_S3300000x1_S3300000x16_1_0_n_n_0_1_116_wf : GatherDims.WF S100000x16 S3300000x1 S3300000x16 [1] [0] [] [0] [] 1 ![1, 16]
  scatter_S100000x16_S3300000x1_S3300000x16_1_0_0_1_wf : ScatterDims.WF S100000x16 S3300000x1 S3300000x16 [1] [0] [0] 1
  dot_S25000x16_S16x1_S25000x1_1_0_0_1_n_n_wf : DotDims.WF S25000x16 S16x1 S25000x1 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S10000x256.size a ≤ S100000x256.size a
  hwx0_0 : ∀ i : grid0.Coords, EltTy.bits .f32 = 32 ∨ (Rect.block (s := S100000x256) S10000x256.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S256x16.size a ≤ S256x16.size a
  hwx0_1 : ∀ i : grid0.Coords, EltTy.bits .f32 = 32 ∨ (Rect.block (s := S256x16) S256x16.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S10000x16.size a ≤ S100000x16.size a
  hwx0_2 : ∀ i : grid0.Coords, EltTy.bits .f32 = 32 ∨ (Rect.block (s := S100000x16) S10000x16.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S25000x16.size a ≤ S100000x16.size a
  hwx1_0 : ∀ i : grid1.Coords, EltTy.bits .f32 = 32 ∨ (Rect.block (s := S100000x16) S25000x16.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S16x1.size a ≤ S16x1.size a
  hwx1_1 : ∀ i : grid1.Coords, EltTy.bits .f32 = 32 ∨ (Rect.block (s := S16x1) S16x1.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1.size a ≤ S1.size a
  hwx1_2 : ∀ i : grid1.Coords, EltTy.bits .f32 = 32 ∨ (Rect.block (s := S1) S1.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S25000x1.size a ≤ S100000x1.size a
  hwx1_3 : ∀ i : grid1.Coords, EltTy.bits .f32 = 32 ∨ (Rect.block (s := S100000x1) S25000x1.size (cc1_transform_3 i) (hinb1_3 i)).WholeWords (EltTy.packing .f32)

variable [Facts₀]

def dot_S10000x256_S256x16_S10000x16_1_0_0_1_n_n : DotDims S10000x256 S256x16 S10000x16 where
  lhsContracting := [1]
  rhsContracting := [0]
  lhsNonContracting := [0]
  rhsNonContracting := [1]
  lhsBatch := []
  rhsBatch := []
  wf := dot_S10000x256_S256x16_S10000x16_1_0_0_1_n_n_wf
def scatter_S100000_S3300000x1_S3300000_n_0_0_1 : ScatterDims S100000 S3300000x1 S3300000 where
  updateWindowDims := []
  insertedWindowDims := [0]
  scatterDimsToOperandDims := [0]
  indexVectorDim := 1
  wf := scatter_S100000_S3300000x1_S3300000_n_0_0_1_wf
def gather_S100000_S3300000x1_S3300000_n_0_n_n_0_1_1 : GatherDims S100000 S3300000x1 S3300000 where
  offsetDims := []
  collapsedSliceDims := [0]
  operandBatchingDims := []
  startIndicesBatchingDims := []
  startIndexMap := [0]
  indexVectorDim := 1
  sliceSizes := ![1]
  wf := gather_S100000_S3300000x1_S3300000_n_0_n_n_0_1_1_wf
def gather_S100000x16_S3300000x1_S3300000x16_1_0_n_n_0_1_116 : GatherDims S100000x16 S3300000x1 S3300000x16 where
  offsetDims := [1]
  collapsedSliceDims := [0]
  operandBatchingDims := []
  startIndicesBatchingDims := []
  startIndexMap := [0]
  indexVectorDim := 1
  sliceSizes := ![1, 16]
  wf := gather_S100000x16_S3300000x1_S3300000x16_1_0_n_n_0_1_116_wf
def scatter_S100000x16_S3300000x1_S3300000x16_1_0_0_1 : ScatterDims S100000x16 S3300000x1 S3300000x16 where
  updateWindowDims := [1]
  insertedWindowDims := [0]
  scatterDimsToOperandDims := [0]
  indexVectorDim := 1
  wf := scatter_S100000x16_S3300000x1_S3300000x16_1_0_0_1_wf
def dot_S25000x16_S16x1_S25000x1_1_0_0_1_n_n : DotDims S25000x16 S16x1 S25000x1 where
  lhsContracting := [1]
  rhsContracting := [0]
  lhsNonContracting := [0]
  rhsNonContracting := [1]
  lhsBatch := []
  rhsBatch := []
  wf := dot_S25000x16_S16x1_S25000x1_1_0_0_1_n_n_wf

abbrev win0_0 : Pipeline.Window sig grid0 :=
  Pipeline.Window.ofSpec (Memref.whole main_arg0) S10000x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S256x16.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v0) S10000x16.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v46) S25000x16.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg4) S16x1.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_arg5) S1.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v47) S25000x1.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

class Facts : Prop extends Facts₀ where

variable [Facts]
-- ==== ReferenceIdeal.lean ====
abbrev S100000x256 : Shape := ⟨2, ![100000, 256]⟩
abbrev S2x3200000 : Shape := ⟨2, ![2, 3200000]⟩
abbrev S256x16 : Shape := ⟨2, ![256, 16]⟩
abbrev S16 : Shape := ⟨1, ![16]⟩
abbrev S16x1 : Shape := ⟨2, ![16, 1]⟩
abbrev S1 : Shape := ⟨1, ![1]⟩
abbrev S100000 : Shape := ⟨1, ![100000]⟩
abbrev S1x3200000 : Shape := ⟨2, ![1, 3200000]⟩
abbrev S3200000 : Shape := ⟨1, ![3200000]⟩
abbrev S3300000 : Shape := ⟨1, ![3300000]⟩
abbrev S_ : Shape := ⟨0, ![]⟩
abbrev S3300000x1 : Shape := ⟨2, ![3300000, 1]⟩
abbrev S100000x16 : Shape := ⟨2, ![100000, 16]⟩
abbrev S3300000x16 : Shape := ⟨2, ![3300000, 16]⟩
abbrev S1x16 : Shape := ⟨2, ![1, 16]⟩
abbrev S100000x1 : Shape := ⟨2, ![100000, 1]⟩
abbrev S1x1 : Shape := ⟨2, ![1, 1]⟩

abbrev nBuf : Space → Nat
  | .hbm => 70
  | .vmem => 0
  | .smem => 0
  | _ => 0

abbrev bufTy : (tb : Table) → Fin (tcTables nBuf tb) → BufTy
  | .hbm, ⟨0, _⟩ => ⟨S100000x256, .f32⟩
  | .hbm, ⟨1, _⟩ => ⟨S2x3200000, .i32⟩
  | .hbm, ⟨2, _⟩ => ⟨S256x16, .f32⟩
  | .hbm, ⟨3, _⟩ => ⟨S16, .f32⟩
  | .hbm, ⟨4, _⟩ => ⟨S16x1, .f32⟩
  | .hbm, ⟨5, _⟩ => ⟨S1, .f32⟩
  | .hbm, ⟨6, _⟩ => ⟨S100000, .i32⟩
  | .hbm, ⟨7, _⟩ => ⟨S1x3200000, .i32⟩
  | .hbm, ⟨8, _⟩ => ⟨S3200000, .i32⟩
  | .hbm, ⟨9, _⟩ => ⟨S3300000, .i32⟩
  | .hbm, ⟨10, _⟩ => ⟨S1x3200000, .i32⟩
  | .hbm, ⟨11, _⟩ => ⟨S3200000, .i32⟩
  | .hbm, ⟨12, _⟩ => ⟨S3300000, .i32⟩
  | .hbm, ⟨13, _⟩ => ⟨S_, .f32⟩
  | .hbm, ⟨14, _⟩ => ⟨S3300000, .f32⟩
  | .hbm, ⟨15, _⟩ => ⟨S_, .f32⟩
  | .hbm, ⟨16, _⟩ => ⟨S100000, .f32⟩
  | .hbm, ⟨17, _⟩ => ⟨S3300000x1, .i32⟩
  | .hbm, ⟨18, _⟩ => ⟨S100000, .f32⟩
  | .hbm, ⟨19, _⟩ => ⟨S_, .f32⟩
  | .hbm, ⟨20, _⟩ => ⟨S100000, .f32⟩
  | .hbm, ⟨21, _⟩ => ⟨S100000, .i1⟩
  | .hbm, ⟨22, _⟩ => ⟨S100000, .f32⟩
  | .hbm, ⟨23, _⟩ => ⟨S_, .f32⟩
  | .hbm, ⟨24, _⟩ => ⟨S_, .f32⟩
  | .hbm, ⟨25, _⟩ => ⟨S100000, .f32⟩
  | .hbm, ⟨26, _⟩ => ⟨S100000, .f32⟩
  | .hbm, ⟨27, _⟩ => ⟨S_, .i32⟩
  | .hbm, ⟨28, _⟩ => ⟨S3300000, .i32⟩
  | .hbm, ⟨29, _⟩ => ⟨S3300000, .i1⟩
  | .hbm, ⟨30, _⟩ => ⟨S_, .i32⟩
  | .hbm, ⟨31, _⟩ => ⟨S3300000, .i32⟩
  | .hbm, ⟨32, _⟩ => ⟨S3300000, .i32⟩
  | .hbm, ⟨33, _⟩ => ⟨S3300000, .i32⟩
  | .hbm, ⟨34, _⟩ => ⟨S3300000x1, .i32⟩
  | .hbm, ⟨35, _⟩ => ⟨S3300000, .f32⟩
  | .hbm, ⟨36, _⟩ => ⟨S_, .i32⟩
  | .hbm, ⟨37, _⟩ => ⟨S3300000, .i32⟩
  | .hbm, ⟨38, _⟩ => ⟨S3300000, .i1⟩
  | .hbm, ⟨39, _⟩ => ⟨S_, .i32⟩
  | .hbm, ⟨40, _⟩ => ⟨S3300000, .i32⟩
  | .hbm, ⟨41, _⟩ => ⟨S3300000, .i32⟩
  | .hbm, ⟨42, _⟩ => ⟨S3300000, .i32⟩
  | .hbm, ⟨43, _⟩ => ⟨S3300000x1, .i32⟩
  | .hbm, ⟨44, _⟩ => ⟨S3300000, .f32⟩
  | .hbm, ⟨45, _⟩ => ⟨S3300000, .f32⟩
  | .hbm, ⟨46, _⟩ => ⟨S100000x16, .f32⟩
  | .hbm, ⟨47, _⟩ => ⟨S_, .i32⟩
  | .hbm, ⟨48, _⟩ => ⟨S3300000, .i32⟩
  | .hbm, ⟨49, _⟩ => ⟨S3300000, .i1⟩
  | .hbm, ⟨50, _⟩ => ⟨S_, .i32⟩
  | .hbm, ⟨51, _⟩ => ⟨S3300000, .i32⟩
  | .hbm, ⟨52, _⟩ => ⟨S3300000, .i32⟩
  | .hbm, ⟨53, _⟩ => ⟨S3300000, .i32⟩
  | .hbm, ⟨54, _⟩ => ⟨S3300000x1, .i32⟩
  | .hbm, ⟨55, _⟩ => ⟨S3300000x16, .f32⟩
  | .hbm, ⟨56, _⟩ => ⟨S3300000x1, .f32⟩
  | .hbm, ⟨57, _⟩ => ⟨S3300000x16, .f32⟩
  | .hbm, ⟨58, _⟩ => ⟨S3300000x16, .f32⟩
  | .hbm, ⟨59, _⟩ => ⟨S_, .f32⟩
  | .hbm, ⟨60, _⟩ => ⟨S100000x16, .f32⟩
  | .hbm, ⟨61, _⟩ => ⟨S3300000x1, .i32⟩
  | .hbm, ⟨62, _⟩ => ⟨S100000x16, .f32⟩
  | .hbm, ⟨63, _⟩ => ⟨S1x16, .f32⟩
  | .hbm, ⟨64, _⟩ => ⟨S100000x16, .f32⟩
  | .hbm, ⟨65, _⟩ => ⟨S100000x16, .f32⟩
  | .hbm, ⟨66, _⟩ => ⟨S100000x1, .f32⟩
  | .hbm, ⟨67, _⟩ => ⟨S1x1, .f32⟩
  | .hbm, ⟨68, _⟩ => ⟨S100000x1, .f32⟩
  | .hbm, ⟨69, _⟩ => ⟨S100000x1, .f32⟩
  | _, _ => ⟨S100000x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst : Ref sig .tc := ⟨.hbm, 13, rfl⟩
abbrev main_v7 : Ref sig .tc := ⟨.hbm, 14, rfl⟩
abbrev main_cst_0 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_1 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_cst_2 : Ref sig .tc := ⟨.hbm, 23, rfl⟩
abbrev main_call0_v0 : Ref sig .tc := ⟨.hbm, 24, rfl⟩
abbrev main_call0_v1 : Ref sig .tc := ⟨.hbm, 25, rfl⟩
abbrev main_v14 : Ref sig .tc := ⟨.hbm, 26, rfl⟩
abbrev main_c : Ref sig .tc := ⟨.hbm, 27, rfl⟩
abbrev main_v15 : Ref sig .tc := ⟨.hbm, 28, rfl⟩
abbrev main_v16 : Ref sig .tc := ⟨.hbm, 29, rfl⟩
abbrev main_c_3 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_c_4 : Ref sig .tc := ⟨.hbm, 36, rfl⟩
abbrev main_v22 : Ref sig .tc := ⟨.hbm, 37, rfl⟩
abbrev main_v23 : Ref sig .tc := ⟨.hbm, 38, rfl⟩
abbrev main_c_5 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_c_6 : Ref sig .tc := ⟨.hbm, 47, rfl⟩
abbrev main_v31 : Ref sig .tc := ⟨.hbm, 48, rfl⟩
abbrev main_v32 : Ref sig .tc := ⟨.hbm, 49, rfl⟩
abbrev main_c_7 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_cst_8 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_v47 : Ref sig .tc := ⟨.hbm, 66, rfl⟩
abbrev main_v48 : Ref sig .tc := ⟨.hbm, 67, rfl⟩
abbrev main_v49 : Ref sig .tc := ⟨.hbm, 68, rfl⟩
abbrev main_v50 : Ref sig .tc := ⟨.hbm, 69, rfl⟩

abbrev nD : Nat := 1
abbrev τ : Topo := Topo.v7x

variable {F : FTy → Type} [FloatOps F]

class Facts₀ : Prop where
  slices_S2x3200000_S1x3200000_0_0 : S2x3200000.Slices ![0, 0] S1x3200000
  shapeCasts_S1x3200000_S3200000 : S1x3200000.ShapeCasts S3200000
  concatenates_S3200000_S100000_S3300000_d0 : Shape.Concatenates [S3200000, S100000] S3300000 0
  slices_S2x3200000_S1x3200000_1_0 : S2x3200000.Slices ![1, 0] S1x3200000
  bcast_S_S3300000 : S_.BroadcastsInDim S3300000 (![] : Fin 0 → Fin S3300000.rank)
  bcast_S_S100000 : S_.BroadcastsInDim S100000 (![] : Fin 0 → Fin S100000.rank)
  bcast_S3300000_S3300000x1_0 : S3300000.BroadcastsInDim S3300000x1 (![0] : Fin 1 → Fin S3300000x1.rank)
  bcast_S3300000x1_S3300000x16_0_1 : S3300000x1.BroadcastsInDim S3300000x16 (![0, 1] : Fin 2 → Fin S3300000x16.rank)
  bcast_S_S100000x16 : S_.BroadcastsInDim S100000x16 (![] : Fin 0 → Fin S100000x16.rank)
  bcast_S16_S1x16_1 : S16.BroadcastsInDim S1x16 (![1] : Fin 1 → Fin S1x16.rank)
  bcast_S1x16_S100000x16_0_1 : S1x16.BroadcastsInDim S100000x16 (![0, 1] : Fin 2 → Fin S100000x16.rank)
  bcast_S1_S1x1_1 : S1.BroadcastsInDim S1x1 (![1] : Fin 1 → Fin S1x1.rank)
  bcast_S1x1_S100000x1_0_1 : S1x1.BroadcastsInDim S100000x1 (![0, 1] : Fin 2 → Fin S100000x1.rank)
  scatter_S100000_S3300000x1_S3300000_n_0_0_1_wf : ScatterDims.WF S100000 S3300000x1 S3300000 [] [0] [0] 1
  gather_S100000_S3300000x1_S3300000_n_0_n_n_0_1_1_wf : GatherDims.WF S100000 S3300000x1 S3300000 [] [0] [] [0] [] 1 ![1]
  dot_S100000x256_S256x16_S100000x16_1_0_0_1_n_n_wf : DotDims.WF S100000x256 S256x16 S100000x16 [1] [0] [0] [1] [] []
  gather_S100000x16_S3300000x1_S3300000x16_1_0_n_n_0_1_116_wf : GatherDims.WF S100000x16 S3300000x1 S3300000x16 [1] [0] [] [0] [] 1 ![1, 16]
  scatter_S100000x16_S3300000x1_S3300000x16_1_0_0_1_wf : ScatterDims.WF S100000x16 S3300000x1 S3300000x16 [1] [0] [0] 1
  dot_S100000x16_S16x1_S100000x1_1_0_0_1_n_n_wf : DotDims.WF S100000x16 S16x1 S100000x1 [1] [0] [0] [1] [] []

variable [Facts₀]

def scatter_S100000_S3300000x1_S3300000_n_0_0_1 : ScatterDims S100000 S3300000x1 S3300000 where
  updateWindowDims := []
  insertedWindowDims := [0]
  scatterDimsToOperandDims := [0]
  indexVectorDim := 1
  wf := scatter_S100000_S3300000x1_S3300000_n_0_0_1_wf
def gather_S100000_S3300000x1_S3300000_n_0_n_n_0_1_1 : GatherDims S100000 S3300000x1 S3300000 where
  offsetDims := []
  collapsedSliceDims := [0]
  operandBatchingDims := []
  startIndicesBatchingDims := []
  startIndexMap := [0]
  indexVectorDim := 1
  sliceSizes := ![1]
  wf := gather_S100000_S3300000x1_S3300000_n_0_n_n_0_1_1_wf
def dot_S100000x256_S256x16_S100000x16_1_0_0_1_n_n : DotDims S100000x256 S256x16 S100000x16 where
  lhsContracting := [1]
  rhsContracting := [0]
  lhsNonContracting := [0]
  rhsNonContracting := [1]
  lhsBatch := []
  rhsBatch := []
  wf := dot_S100000x256_S256x16_S100000x16_1_0_0_1_n_n_wf
def gather_S100000x16_S3300000x1_S3300000x16_1_0_n_n_0_1_116 : GatherDims S100000x16 S3300000x1 S3300000x16 where
  offsetDims := [1]
  collapsedSliceDims := [0]
  operandBatchingDims := []
  startIndicesBatchingDims := []
  startIndexMap := [0]
  indexVectorDim := 1
  sliceSizes := ![1, 16]
  wf := gather_S100000x16_S3300000x1_S3300000x16_1_0_n_n_0_1_116_wf
def scatter_S100000x16_S3300000x1_S3300000x16_1_0_0_1 : ScatterDims S100000x16 S3300000x1 S3300000x16 where
  updateWindowDims := [1]
  insertedWindowDims := [0]
  scatterDimsToOperandDims := [0]
  indexVectorDim := 1
  wf := scatter_S100000x16_S3300000x1_S3300000x16_1_0_0_1_wf
def dot_S100000x16_S16x1_S100000x1_1_0_0_1_n_n : DotDims S100000x16 S16x1 S100000x1 where
  lhsContracting := [1]
  rhsContracting := [0]
  lhsNonContracting := [0]
  rhsNonContracting := [1]
  lhsBatch := []
  rhsBatch := []
  wf := dot_S100000x16_S16x1_S100000x1_1_0_0_1_n_n_wf

class Facts : Prop extends Facts₀ where

variable [Facts]
-- ==== Proof.Payloads.lean ====
/-
  The arithmetic of the two kernel bodies, read at one entry of the block a grid point stores.

  The first body stores the product of its block of node features (10000 × 256) with the whole weight (256 × 16):
  entry (r, c) is the sum over the 256 features of `x r k · w k c`. The second stores the product of its block of
  aggregated features (25000 × 16) with the head's weight (16 × 1) plus the one bias entry on every row. Both round
  their operands to a narrower float format first, which changes nothing on the extended reals, and both
  accumulate into zero.
-/
import proofs.«104408_j63780264346286_1_alg».proof.Proof.Gen.KernelIdeal.Skeleton
import Idealize.ShloMosaic.Lib.ValueIdx
import Idealize.ShloMosaic.Lib.Pipeline.Value
import Idealize.ShloMosaic.PureOps.Ideal.Laws

noncomputable section

namespace Cert.KernelIdeal.Pay

open Cert.KernelIdeal Cert.KernelIdeal.Gen Idealize.ShloMosaic Idealize.SL.Sem

/-! ## The feature transform's block product -/

/-- Along the row axis the left operand is read at the output entry's row. -/
theorem lhs0_0 (j : S10000x16.Idx) (q : dot_S10000x256_S256x16_S10000x16_1_0_0_1_n_n.contr.Idx) :
    (dot_S10000x256_S256x16_S10000x16_1_0_0_1_n_n.lhsIdx j q 0).val = (j 0).val := by
  unfold DotDims.lhsIdx
  rw [dif_neg (show ¬(0 : Fin S10000x256.rank) ∈ dot_S10000x256_S256x16_S10000x16_1_0_0_1_n_n.lhsBatch by decide), dif_pos (show (0 : Fin S10000x256.rank) ∈ dot_S10000x256_S256x16_S10000x16_1_0_0_1_n_n.lhsNonContracting by decide)]
  rfl
/-- Along the contracted axis the left operand is read at the summation index. -/
theorem lhs0_1 (j : S10000x16.Idx) (q : dot_S10000x256_S256x16_S10000x16_1_0_0_1_n_n.contr.Idx) :
    (dot_S10000x256_S256x16_S10000x16_1_0_0_1_n_n.lhsIdx j q 1).val = (q ⟨0, by decide⟩).val :=
  dot_S10000x256_S256x16_S10000x16_1_0_0_1_n_n.lhsIdx_val_of_single rfl j q
/-- Along the contracted axis the right operand is read at the summation index. -/
theorem rhs0_0 (j : S10000x16.Idx) (q : dot_S10000x256_S256x16_S10000x16_1_0_0_1_n_n.contr.Idx) :
    (dot_S10000x256_S256x16_S10000x16_1_0_0_1_n_n.rhsIdx j q 0).val = (q ⟨0, by decide⟩).val :=
  dot_S10000x256_S256x16_S10000x16_1_0_0_1_n_n.rhsIdx_val_of_single rfl j q
/-- Along the column axis the right operand is read at the output entry's column. -/
theorem rhs0_1 (j : S10000x16.Idx) (q : dot_S10000x256_S256x16_S10000x16_1_0_0_1_n_n.contr.Idx) :
    (dot_S10000x256_S256x16_S10000x16_1_0_0_1_n_n.rhsIdx j q 1).val = (j 1).val := by
  unfold DotDims.rhsIdx
  rw [dif_neg (show ¬(1 : Fin S256x16.rank) ∈ dot_S10000x256_S256x16_S10000x16_1_0_0_1_n_n.rhsBatch by decide), dif_pos (show (1 : Fin S256x16.rank) ∈ dot_S10000x256_S256x16_S10000x16_1_0_0_1_n_n.rhsNonContracting by decide)]
  rfl

/-- Inside a block of node features: the row of the entry `j`, feature `k`. -/
abbrev blkFeatAt (j : S10000x16.Idx) (k : Fin 256) : S10000x256.Idx := fun a => match a with
  | ⟨0, _⟩ => ⟨(j 0).val, (j 0).isLt⟩
  | ⟨1, _⟩ => ⟨k.val, k.isLt⟩
/-- In the weight: feature `k`, the column of the entry `j`. -/
abbrev blkWeightAt (j : S10000x16.Idx) (k : Fin 256) : S256x16.Idx := fun a => match a with
  | ⟨0, _⟩ => ⟨k.val, k.isLt⟩
  | ⟨1, _⟩ => ⟨(j 1).val, (j 1).isLt⟩

/-- The block product into the zero accumulator, read at an entry: the sum over the 256 features of left times
    right (rounding the operands to the narrower format is the identity on the extended reals). -/
theorem matmul0_apply (l : FVec Ideal S10000x256 .f32) (r : FVec Ideal S256x16 .f32) (j : S10000x16.Idx) :
    matmul dot_S10000x256_S256x16_S10000x16_1_0_0_1_n_n none (truncf .bf16 l bitsLt_bf16_f32) (truncf .bf16 r bitsLt_bf16_f32) (constant (F := Ideal) S10000x16 .f32 0x00000000#32) j
      = ∑ k : Fin 256, l (blkFeatAt j k) * r (blkWeightAt j k) := by
  refine (Ideal.matmul_constant_zero_apply dot_S10000x256_S256x16_S10000x16_1_0_0_1_n_n none _ _ j).trans ?_
  rw [← Equiv.sum_comp (ValueIdx.contrEquiv1 dot_S10000x256_S256x16_S10000x16_1_0_0_1_n_n 256 rfl rfl).symm]
  refine Finset.sum_congr rfl fun k _ => ?_
  have hk := ValueIdx.contrEquiv1_symm_val dot_S10000x256_S256x16_S10000x16_1_0_0_1_n_n 256 rfl rfl k
  have el : dot_S10000x256_S256x16_S10000x16_1_0_0_1_n_n.lhsIdx j ((ValueIdx.contrEquiv1 dot_S10000x256_S256x16_S10000x16_1_0_0_1_n_n 256 rfl rfl).symm k) = blkFeatAt j k := funext fun a => Fin.ext (by
    match a with
    | ⟨0, _⟩ => exact lhs0_0 _ _
    | ⟨1, _⟩ => exact (lhs0_1 _ _).trans hk)
  have er : dot_S10000x256_S256x16_S10000x16_1_0_0_1_n_n.rhsIdx j ((ValueIdx.contrEquiv1 dot_S10000x256_S256x16_S10000x16_1_0_0_1_n_n 256 rfl rfl).symm k) = blkWeightAt j k := funext fun a => Fin.ext (by
    match a with
    | ⟨0, _⟩ => exact (rhs0_0 _ _).trans hk
    | ⟨1, _⟩ => exact rhs0_1 _ _)
  rw [el, er]
  rfl

/-- What a point of the first kernel stores, entry by entry. -/
theorem pay0_apply (x0 : Vec Ideal S10000x256 .f32) (x1 : Vec Ideal S256x16 .f32) (j : S10000x16.Idx) :
    k0_pay1 (F := Ideal) x0 x1 j = ∑ k : Fin 256, x0 (blkFeatAt j k) * x1 (blkWeightAt j k) := by
  unfold k0_pay1
  exact matmul0_apply x0 x1 j

/-! ## The regression head's block product and bias -/

/-- Along the row axis the left operand is read at the output entry's row. -/
theorem lhs1_0 (j : S25000x1.Idx) (q : dot_S25000x16_S16x1_S25000x1_1_0_0_1_n_n.contr.Idx) :
    (dot_S25000x16_S16x1_S25000x1_1_0_0_1_n_n.lhsIdx j q 0).val = (j 0).val := by
  unfold DotDims.lhsIdx
  rw [dif_neg (show ¬(0 : Fin S25000x16.rank) ∈ dot_S25000x16_S16x1_S25000x1_1_0_0_1_n_n.lhsBatch by decide), dif_pos (show (0 : Fin S25000x16.rank) ∈ dot_S25000x16_S16x1_S25000x1_1_0_0_1_n_n.lhsNonContracting by decide)]
  rfl
/-- Along the contracted axis the left operand is read at the summation index. -/
theorem lhs1_1 (j : S25000x1.Idx) (q : dot_S25000x16_S16x1_S25000x1_1_0_0_1_n_n.contr.Idx) :
    (dot_S25000x16_S16x1_S25000x1_1_0_0_1_n_n.lhsIdx j q 1).val = (q ⟨0, by decide⟩).val :=
  dot_S25000x16_S16x1_S25000x1_1_0_0_1_n_n.lhsIdx_val_of_single rfl j q
/-- Along the contracted axis the right operand is read at the summation index. -/
theorem rhs1_0 (j : S25000x1.Idx) (q : dot_S25000x16_S16x1_S25000x1_1_0_0_1_n_n.contr.Idx) :
    (dot_S25000x16_S16x1_S25000x1_1_0_0_1_n_n.rhsIdx j q 0).val = (q ⟨0, by decide⟩).val :=
  dot_S25000x16_S16x1_S25000x1_1_0_0_1_n_n.rhsIdx_val_of_single rfl j q
/-- Along the column axis the right operand is read at the output entry's column. -/
theorem rhs1_1 (j : S25000x1.Idx) (q : dot_S25000x16_S16x1_S25000x1_1_0_0_1_n_n.contr.Idx) :
    (dot_S25000x16_S16x1_S25000x1_1_0_0_1_n_n.rhsIdx j q 1).val = (j 1).val := by
  unfold DotDims.rhsIdx
  rw [dif_neg (show ¬(1 : Fin S16x1.rank) ∈ dot_S25000x16_S16x1_S25000x1_1_0_0_1_n_n.rhsBatch by decide), dif_pos (show (1 : Fin S16x1.rank) ∈ dot_S25000x16_S16x1_S25000x1_1_0_0_1_n_n.rhsNonContracting by decide)]
  rfl

/-- Inside a block of aggregated features: the row of the entry `j`, hidden channel `k`. -/
abbrev blkHiddenAt (j : S25000x1.Idx) (k : Fin 16) : S25000x16.Idx := fun a => match a with
  | ⟨0, _⟩ => ⟨(j 0).val, (j 0).isLt⟩
  | ⟨1, _⟩ => ⟨k.val, k.isLt⟩
/-- In the head's weight: hidden channel `k`, the one column. -/
abbrev blkHeadWeightAt (j : S25000x1.Idx) (k : Fin 16) : S16x1.Idx := fun a => match a with
  | ⟨0, _⟩ => ⟨k.val, k.isLt⟩
  | ⟨1, _⟩ => ⟨(j 1).val, (j 1).isLt⟩

/-- The head's block product into the zero accumulator, read at an entry: the sum over the 16 hidden channels. -/
theorem matmul1_apply (l : FVec Ideal S25000x16 .f32) (r : FVec Ideal S16x1 .f32) (j : S25000x1.Idx) :
    matmul dot_S25000x16_S16x1_S25000x1_1_0_0_1_n_n none (truncf .bf16 l bitsLt_bf16_f32) (truncf .bf16 r bitsLt_bf16_f32) (constant (F := Ideal) S25000x1 .f32 0x00000000#32) j
      = ∑ k : Fin 16, l (blkHiddenAt j k) * r (blkHeadWeightAt j k) := by
  refine (Ideal.matmul_constant_zero_apply dot_S25000x16_S16x1_S25000x1_1_0_0_1_n_n none _ _ j).trans ?_
  rw [← Equiv.sum_comp (ValueIdx.contrEquiv1 dot_S25000x16_S16x1_S25000x1_1_0_0_1_n_n 16 rfl rfl).symm]
  refine Finset.sum_congr rfl fun k _ => ?_
  have hk := ValueIdx.contrEquiv1_symm_val dot_S25000x16_S16x1_S25000x1_1_0_0_1_n_n 16 rfl rfl k
  have el : dot_S25000x16_S16x1_S25000x1_1_0_0_1_n_n.lhsIdx j ((ValueIdx.contrEquiv1 dot_S25000x16_S16x1_S25000x1_1_0_0_1_n_n 16 rfl rfl).symm k) = blkHiddenAt j k := funext fun a => Fin.ext (by
    match a with
    | ⟨0, _⟩ => exact lhs1_0 _ _
    | ⟨1, _⟩ => exact (lhs1_1 _ _).trans hk)
  have er : dot_S25000x16_S16x1_S25000x1_1_0_0_1_n_n.rhsIdx j ((ValueIdx.contrEquiv1 dot_S25000x16_S16x1_S25000x1_1_0_0_1_n_n 16 rfl rfl).symm k) = blkHeadWeightAt j k := funext fun a => Fin.ext (by
    match a with
    | ⟨0, _⟩ => exact (rhs1_0 _ _).trans hk
    | ⟨1, _⟩ => exact rhs1_1 _ _)
  rw [el, er]
  rfl

/-- The bias array has one entry, so any two of its indices are equal. -/
theorem one_idx_eq (a b : S1.Idx) : a = b := funext fun d => match d with
  | ⟨0, _⟩ => Fin.ext (by
      have ha : (a 0).val < 1 := (a 0).isLt
      have hb : (b 0).val < 1 := (b 0).isLt
      show (a 0).val = (b 0).val
      omega)

/-- The one entry of the bias. -/
abbrev blkBiasAt : S1.Idx := fun a => match a with
  | ⟨0, _⟩ => ⟨0, Nat.one_pos⟩

/-- The bias, viewed as 1 × 1 and spread over the block's rows, is its one entry everywhere. -/
theorem bias_apply (x2 : Vec Ideal S1 .f32) (j : S25000x1.Idx) :
    broadcastTo S25000x1 (shapeCast S1x1 x2 shapeCasts_S1_S1x1) broadcasts_S1x1_S25000x1 j = x2 blkBiasAt := by
  unfold broadcastTo shapeCast
  exact congrArg x2 (one_idx_eq _ _)

/-- What a point of the second kernel stores, entry by entry. -/
theorem pay1_apply (x0 : Vec Ideal S25000x16 .f32) (x1 : Vec Ideal S16x1 .f32) (x2 : Vec Ideal S1 .f32) (j : S25000x1.Idx) :
    k1_pay1 (F := Ideal) x0 x1 x2 j = (∑ k : Fin 16, x0 (blkHiddenAt j k) * x1 (blkHeadWeightAt j k)) + x2 blkBiasAt := by
  unfold k1_pay1
  rw [shapeCast_self]
  refine (ValueIdx.addf_apply _ _ j).trans ?_
  rw [matmul1_apply x0 x1 j, bias_apply x2 j]

end Cert.KernelIdeal.Pay

end
-- ==== Proof.Spec.lean ====
/-
  The two dense stages of the graph-convolution regression as whole-array functions over the extended reals.

  `xw x w` is the feature transform: entry (r, c) of the product of the node features `x` (100000 × 256) with the
  weight `w` (256 × 16), the sum over the 256 features of `x r k · w k c`.
  `head o v b` is the regression head: entry (r, 0) is the sum over the 16 hidden channels of `o r k · v k 0` plus
  the one bias entry `b 0`.
  Both are sums of products only, so no finiteness of the inputs is needed to compare two ways of computing them.
-/
import Idealize.ShloMosaic.Lib.ValueIdx

noncomputable section

namespace Cert.Spec

open Idealize.ShloMosaic

abbrev Nodes256 : Shape := ⟨2, ![100000, 256]⟩
abbrev W256x16 : Shape := ⟨2, ![256, 16]⟩
abbrev Nodes16 : Shape := ⟨2, ![100000, 16]⟩
abbrev W16x1 : Shape := ⟨2, ![16, 1]⟩
abbrev Nodes1 : Shape := ⟨2, ![100000, 1]⟩
abbrev One : Shape := ⟨1, ![1]⟩

/-- Row `r` of the output entry `i`, feature `k`: where the transform reads the node features. -/
abbrev featAt (i : Nodes16.Idx) (k : Fin 256) : Nodes256.Idx := fun a => match a with
  | ⟨0, _⟩ => ⟨(i 0).val, (i 0).isLt⟩
  | ⟨1, _⟩ => ⟨k.val, k.isLt⟩
/-- Feature `k`, column `c` of the output entry `i`: where the transform reads the weight. -/
abbrev weightAt (i : Nodes16.Idx) (k : Fin 256) : W256x16.Idx := fun a => match a with
  | ⟨0, _⟩ => ⟨k.val, k.isLt⟩
  | ⟨1, _⟩ => ⟨(i 1).val, (i 1).isLt⟩

/-- The feature transform `x · w`, entry by entry. -/
def xw (x : Nodes256.Idx → EReal) (w : W256x16.Idx → EReal) : Nodes16.Idx → EReal :=
  fun i => ∑ k : Fin 256, x (featAt i k) * w (weightAt i k)

/-- Row of the output entry `i`, hidden channel `k`: where the head reads the aggregated features. -/
abbrev hiddenAt (i : Nodes1.Idx) (k : Fin 16) : Nodes16.Idx := fun a => match a with
  | ⟨0, _⟩ => ⟨(i 0).val, (i 0).isLt⟩
  | ⟨1, _⟩ => ⟨k.val, k.isLt⟩
/-- Hidden channel `k`, the one output column: where the head reads its weight. -/
abbrev headWeightAt (i : Nodes1.Idx) (k : Fin 16) : W16x1.Idx := fun a => match a with
  | ⟨0, _⟩ => ⟨k.val, k.isLt⟩
  | ⟨1, _⟩ => ⟨(i 1).val, (i 1).isLt⟩
/-- The bias has one entry. -/
abbrev biasAt : One.Idx := fun a => match a with
  | ⟨0, _⟩ => ⟨0, Nat.one_pos⟩

/-- The bias array has one entry, so any two of its indices are equal. -/
theorem one_idx_eq (a b : One.Idx) : a = b := funext fun d => match d with
  | ⟨0, _⟩ => Fin.ext (by
      have ha : (a 0).val < 1 := (a 0).isLt
      have hb : (b 0).val < 1 := (b 0).isLt
      show (a 0).val = (b 0).val
      omega)

/-- The regression head `o · v + b`, entry by entry. -/
def head (o : Nodes16.Idx → EReal) (v : W16x1.Idx → EReal) (b : One.Idx → EReal) : Nodes1.Idx → EReal :=
  fun i => (∑ k : Fin 16, o (hiddenAt i k) * v (headWeightAt i k)) + b biasAt

end Cert.Spec

end
-- ==== Proof.Region0.lean ====
/-
  The first kernel launch, read as a value: whatever the arrays hold when the region is entered (`V`), it leaves in
  its result array the feature transform `xw` of the node features and the weight as the region found them.

  Grid point `t` works on rows 10000·t … 10000·t + 9999: its block of node features is those rows (all 256
  columns), the weight is fetched whole, and what it writes back is those rows of the product. Entry (r, c) of the
  stored block is the sum over the features of `x (10000·t + r) k · w k c`, which is entry (10000·t + r, c) of
  `xw x w`; the ten row bands tile the 100000 rows, so the array ends holding `xw x w` everywhere.
-/
import proofs.«104408_j63780264346286_1_alg».proof.Proof.Gen.KernelIdeal.Frame
import proofs.«104408_j63780264346286_1_alg».proof.Proof.Payloads
import proofs.«104408_j63780264346286_1_alg».proof.Proof.Spec
import Idealize.ShloMosaic.Lib.Pipeline.Value

set_option maxRecDepth 16384

noncomputable section

namespace Cert.KernelIdeal.Reg0

open Cert.KernelIdeal Cert.KernelIdeal.Gen Cert.KernelIdeal.Pay Cert.Spec
open Idealize.ShloMosaic Idealize.ShloMosaic.TcCoe Idealize.SL.Sem
open Idealize.ShloMosaic.Pipeline (Dat)

variable (V : (c : Dev nD) → (b : Ref sig .tc) → Buf (Elt Ideal) ((c : Thread nD τ).loc b))

theorem origin2 : (![0, 0] : Fin 2 → Nat) = fun _ => 0 := funext fun a => by fin_cases a <;> rfl

/-- The node features as the region finds them. -/
abbrev feats (c : Dev nD) : Vec Ideal S100000x256 .f32 := V c main_arg0
/-- The weight as the region finds it. -/
abbrev weight (c : Dev nD) : Vec Ideal S256x16 .f32 := V c main_arg2

/-- The index maps over the grid: the feature block moves with the output's row band, everything else stays at 0. -/
theorem band_facts : ∀ t : Fin cfg0.N, win0_0.index t (0 : Fin 2) = win0_2.index t (0 : Fin 2)
    ∧ win0_0.index t (1 : Fin 2) = 0
    ∧ win0_1.index t (0 : Fin 2) = 0
    ∧ win0_1.index t (1 : Fin 2) = 0
    ∧ win0_2.index t (1 : Fin 2) = 0 :=
  (by decide +kernel : ∀ t : Fin grid0.N, _)

/-- Every one of the ten row bands is some point's. -/
theorem band_onto : ∀ q : Fin 10, ∃ t : Fin cfg0.N, win0_2.index t = ![q.val, 0] :=
  (by decide +kernel : ∀ q : Fin 10, ∃ t : Fin grid0.N, win0_2.index t = ![q.val, 0])

/-- What point `t` writes back is its row band of `xw` of the arrays as the region finds them. -/
theorem flushed_eq (c : Dev nD) (t : Fin cfg0.N) :
    (dat0 (F := Ideal) V c).flushed 2 t = ((cfg0.win 2).blk t).view.read (Elt Ideal) (xw (V c main_arg0) (V c main_arg2)) := by
  show (cfg0.win 2).cut (grid0.coords t) ((dat0 (F := Ideal) V c).after 2 t) = _
  rw [after0_2]
  unfold out0_2
  rw [View.canon_unit_zero origin2]
  simp only [View.ld_unit_zero (S := S10000x256) origin2, View.ld_unit_zero (S := S256x16) origin2]
  obtain ⟨e0, e1, e2, e3, e4⟩ := band_facts t
  funext j
  show k0_pay1 (F := Ideal) (iblk0 V c 0 t) (iblk0 V c 1 t) j = xw (V c main_arg0) (V c main_arg2) (((cfg0.win 2).blk t).view.emb j)
  refine (pay0_apply (iblk0 V c 0 t) (iblk0 V c 1 t) j).trans ?_
  unfold xw
  refine Finset.sum_congr rfl fun k _ => ?_
  show feats V c (((cfg0.win 0).blk t).view.emb (blkFeatAt j k)) * weight V c (((cfg0.win 1).blk t).view.emb (blkWeightAt j k))
    = feats V c (featAt (((cfg0.win 2).blk t).view.emb j) k) * weight V c (weightAt (((cfg0.win 2).blk t).view.emb j) k)
  have h0 : ((cfg0.win 0).blk t).view.emb (blkFeatAt j k) = featAt (((cfg0.win 2).blk t).view.emb j) k := by
    funext a; apply Fin.ext
    match a with
    | ⟨0, _⟩ => show win0_0.index t (0 : Fin 2) * 10000 + 1 * (j 0).val = win0_2.index t (0 : Fin 2) * 10000 + 1 * (j 0).val; omega
    | ⟨1, _⟩ => show win0_0.index t (1 : Fin 2) * 256 + 1 * k.val = k.val; omega
  have h1 : ((cfg0.win 1).blk t).view.emb (blkWeightAt j k) = weightAt (((cfg0.win 2).blk t).view.emb j) k := by
    funext a; apply Fin.ext
    match a with
    | ⟨0, _⟩ => show win0_1.index t (0 : Fin 2) * 256 + 1 * k.val = k.val; omega
    | ⟨1, _⟩ => show win0_1.index t (1 : Fin 2) * 16 + 1 * (j 1).val = win0_2.index t (1 : Fin 2) * 16 + 1 * (j 1).val; omega
  rw [h0, h1]

/-- An entry of the result array is in point `t`'s band iff each coordinate is in the band's range on its axis. -/
theorem mem_band (t : Fin cfg0.N) (i : S100000x16.Idx) :
    i ∈ ((cfg0.win 2).blk t).view.set ↔ ∀ a : Fin 2, win0_2.index t a * S10000x16.size a ≤ (i a).val ∧ (i a).val < win0_2.index t a * S10000x16.size a + S10000x16.size a := by
  show i ∈ ((View.whole main_v0).slice (win0_2.rect t)).set ↔ _
  rw [View.set_slice_whole, Rect.mem_set_unit]
  exact Iff.rfl

/-- The ten bands cover the result array: row `r` is in band `r / 10000`. -/
theorem cover (i : S100000x16.Idx) : ∃ t : Fin cfg0.N, (cfg0.win 2).flush t = true ∧ i ∈ ((cfg0.win 2).blk t).view.set := by
  have hi0 : (i 0).val < 100000 := (i 0).isLt
  have hi1 : (i 1).val < 16 := (i 1).isLt
  obtain ⟨t, ht⟩ := band_onto ⟨(i 0).val / 10000, by omega⟩
  have q0 : win0_2.index t (0 : Fin 2) = (i 0).val / 10000 := congrFun ht 0
  have q1 : win0_2.index t (1 : Fin 2) = 0 := congrFun ht 1
  refine ⟨t, flush0_2 t, ?_⟩
  rw [mem_band]
  intro a
  match a with
  | ⟨0, _⟩ => show win0_2.index t (0 : Fin 2) * 10000 ≤ (i 0).val ∧ (i 0).val < win0_2.index t (0 : Fin 2) * 10000 + 10000; omega
  | ⟨1, _⟩ => show win0_2.index t (1 : Fin 2) * 16 ≤ (i 1).val ∧ (i 1).val < win0_2.index t (1 : Fin 2) * 16 + 16; omega

/-- The result array after the region: the feature transform of the arrays as the region found them. -/
theorem final (c : Dev nD) : (dat0 (F := Ideal) V c).arrAt 2 cfg0.N = xw (V c main_arg0) (V c main_arg2) :=
  (dat0 (F := Ideal) V c).arrAt_eq_of_cover 2 _ (fun t _ => flushed_eq V c t) cover

end Cert.KernelIdeal.Reg0

end
-- ==== Proof.Region1.lean ====
/-
  The second kernel launch, read as a value: whatever the arrays hold when the region is entered (`V`), it leaves in
  its result array the regression head `head` of the aggregated features, the head's weight and the bias as the
  region found them.

  Grid point `t` works on rows 25000·t … 25000·t + 24999: its block of aggregated features is those rows (all 16
  channels), the weight (16 × 1) and the bias (one entry) are fetched whole, and it writes back those rows of the
  one output column. Entry (r, 0) of the stored block is the sum over the channels of `o (25000·t + r) k · v k 0`
  plus the bias entry, which is entry (25000·t + r, 0) of `head o v b`; the four row bands tile the 100000 rows.
-/
import proofs.«104408_j63780264346286_1_alg».proof.Proof.Gen.KernelIdeal.Frame
import proofs.«104408_j63780264346286_1_alg».proof.Proof.Payloads
import proofs.«104408_j63780264346286_1_alg».proof.Proof.Spec
import Idealize.ShloMosaic.Lib.Pipeline.Value

set_option maxRecDepth 16384

noncomputable section

namespace Cert.KernelIdeal.Reg1

open Cert.KernelIdeal Cert.KernelIdeal.Gen Cert.KernelIdeal.Pay Cert.Spec
open Idealize.ShloMosaic Idealize.ShloMosaic.TcCoe Idealize.SL.Sem
open Idealize.ShloMosaic.Pipeline (Dat)

variable (V : (c : Dev nD) → (b : Ref sig .tc) → Buf (Elt Ideal) ((c : Thread nD τ).loc b))

theorem origin2 : (![0, 0] : Fin 2 → Nat) = fun _ => 0 := funext fun a => by fin_cases a <;> rfl
theorem origin1 : (![0] : Fin 1 → Nat) = fun _ => 0 := funext fun a => by fin_cases a; rfl

/-- The aggregated features as the region finds them. -/
abbrev aggd (c : Dev nD) : Vec Ideal S100000x16 .f32 := V c main_v46
/-- The head's weight as the region finds it. -/
abbrev hweight (c : Dev nD) : Vec Ideal S16x1 .f32 := V c main_arg4
/-- The head's bias as the region finds it. -/
abbrev hbias (c : Dev nD) : Vec Ideal S1 .f32 := V c main_arg5

/-- The index maps over the grid: the block of aggregated features moves with the output's row band, everything else stays at 0. -/
theorem band_facts : ∀ t : Fin cfg1.N, win1_0.index t (0 : Fin 2) = win1_3.index t (0 : Fin 2)
    ∧ win1_0.index t (1 : Fin 2) = 0
    ∧ win1_1.index t (0 : Fin 2) = 0
    ∧ win1_1.index t (1 : Fin 2) = 0
    ∧ win1_3.index t (1 : Fin 2) = 0 :=
  (by decide +kernel : ∀ t : Fin grid1.N, _)

/-- Every one of the four row bands is some point's. -/
theorem band_onto : ∀ q : Fin 4, ∃ t : Fin cfg1.N, win1_3.index t = ![q.val, 0] :=
  (by decide +kernel : ∀ q : Fin 4, ∃ t : Fin grid1.N, win1_3.index t = ![q.val, 0])

/-- What point `t` writes back is its row band of `head` of the arrays as the region finds them. -/
theorem flushed_eq (c : Dev nD) (t : Fin cfg1.N) :
    (dat1 (F := Ideal) V c).flushed 3 t = ((cfg1.win 3).blk t).view.read (Elt Ideal) (head (V c main_v46) (V c main_arg4) (V c main_arg5)) := by
  show (cfg1.win 3).cut (grid1.coords t) ((dat1 (F := Ideal) V c).after 3 t) = _
  rw [after1_3]
  unfold out1_3
  rw [View.canon_unit_zero origin2]
  simp only [View.ld_unit_zero (S := S25000x16) origin2, View.ld_unit_zero (S := S16x1) origin2, View.ld_unit_zero (S := S1) origin1]
  obtain ⟨e0, e1, e2, e3, e4⟩ := band_facts t
  funext j
  show k1_pay1 (F := Ideal) (iblk1 V c 0 t) (iblk1 V c 1 t) (iblk1 V c 2 t) j = head (V c main_v46) (V c main_arg4) (V c main_arg5) (((cfg1.win 3).blk t).view.emb j)
  refine (pay1_apply (iblk1 V c 0 t) (iblk1 V c 1 t) (iblk1 V c 2 t) j).trans ?_
  unfold head
  refine congrArg₂ (· + ·) (Finset.sum_congr rfl fun k _ => ?_) ?_
  · show aggd V c (((cfg1.win 0).blk t).view.emb (blkHiddenAt j k)) * hweight V c (((cfg1.win 1).blk t).view.emb (blkHeadWeightAt j k))
      = aggd V c (hiddenAt (((cfg1.win 3).blk t).view.emb j) k) * hweight V c (headWeightAt (((cfg1.win 3).blk t).view.emb j) k)
    have h0 : ((cfg1.win 0).blk t).view.emb (blkHiddenAt j k) = hiddenAt (((cfg1.win 3).blk t).view.emb j) k := by
      funext a; apply Fin.ext
      match a with
      | ⟨0, _⟩ => show win1_0.index t (0 : Fin 2) * 25000 + 1 * (j 0).val = win1_3.index t (0 : Fin 2) * 25000 + 1 * (j 0).val; omega
      | ⟨1, _⟩ => show win1_0.index t (1 : Fin 2) * 16 + 1 * k.val = k.val; omega
    have h1 : ((cfg1.win 1).blk t).view.emb (blkHeadWeightAt j k) = headWeightAt (((cfg1.win 3).blk t).view.emb j) k := by
      funext a; apply Fin.ext
      match a with
      | ⟨0, _⟩ => show win1_1.index t (0 : Fin 2) * 16 + 1 * k.val = k.val; omega
      | ⟨1, _⟩ => show win1_1.index t (1 : Fin 2) * 1 + 1 * (j 1).val = win1_3.index t (1 : Fin 2) * 1 + 1 * (j 1).val; omega
    rw [h0, h1]
  · show hbias V c (((cfg1.win 2).blk t).view.emb blkBiasAt) = hbias V c biasAt
    exact congrArg (hbias V c) (Cert.Spec.one_idx_eq _ _)

/-- An entry of the result array is in point `t`'s band iff each coordinate is in the band's range on its axis. -/
theorem mem_band (t : Fin cfg1.N) (i : S100000x1.Idx) :
    i ∈ ((cfg1.win 3).blk t).view.set ↔ ∀ a : Fin 2, win1_3.index t a * S25000x1.size a ≤ (i a).val ∧ (i a).val < win1_3.index t a * S25000x1.size a + S25000x1.size a := by
  show i ∈ ((View.whole main_v47).slice (win1_3.rect t)).set ↔ _
  rw [View.set_slice_whole, Rect.mem_set_unit]
  exact Iff.rfl

/-- The four bands cover the result array: row `r` is in band `r / 25000`. -/
theorem cover (i : S100000x1.Idx) : ∃ t : Fin cfg1.N, (cfg1.win 3).flush t = true ∧ i ∈ ((cfg1.win 3).blk t).view.set := by
  have hi0 : (i 0).val < 100000 := (i 0).isLt
  have hi1 : (i 1).val < 1 := (i 1).isLt
  obtain ⟨t, ht⟩ := band_onto ⟨(i 0).val / 25000, by omega⟩
  have q0 : win1_3.index t (0 : Fin 2) = (i 0).val / 25000 := congrFun ht 0
  have q1 : win1_3.index t (1 : Fin 2) = 0 := congrFun ht 1
  refine ⟨t, flush1_3 t, ?_⟩
  rw [mem_band]
  intro a
  match a with
  | ⟨0, _⟩ => show win1_3.index t (0 : Fin 2) * 25000 ≤ (i 0).val ∧ (i 0).val < win1_3.index t (0 : Fin 2) * 25000 + 25000; omega
  | ⟨1, _⟩ => show win1_3.index t (1 : Fin 2) * 1 ≤ (i 1).val ∧ (i 1).val < win1_3.index t (1 : Fin 2) * 1 + 1; omega

/-- The result array after the region: the regression head of the arrays as the region found them. -/
theorem final (c : Dev nD) : (dat1 (F := Ideal) V c).arrAt 3 cfg1.N = head (V c main_v46) (V c main_arg4) (V c main_arg5) :=
  (dat1 (F := Ideal) V c).arrAt_eq_of_cover 3 _ (fun t _ => flushed_eq V c t) cover

end Cert.KernelIdeal.Reg1

end
-- ==== Proof.Aggregate.lean ====
/-
  The graph-convolution aggregation that stands between the two dense stages, as ONE function of the transformed
  node features `h` (100000 × 16), the edge list `e` (2 × 3200000 node numbers) and the bias `b` (16).

  Every node gets a self-loop: the sources are row 0 of the edge list followed by 0 … 99999, the targets row 1 followed
  by 0 … 99999 (`endpoints`). The degree of a node counts the edges that end in it (a scatter-add of ones over the
  targets); its normalisation is `deg^(-1/2)` where the degree is positive and 0 elsewhere. An edge weighs the
  product of its two ends' normalisations; a negative node number is wrapped once by the node count before it
  is looked up. The aggregate adds, into the row of each edge's target, the source's row of `h` times the edge's
  weight, and the bias is added to every row at the end.

  Both programs apply exactly this chain of host operations to their own transformed features, so the
  certificate never opens it: it only needs that the two values going in are equal.
-/
import proofs.«104408_j63780264346286_1_alg».proof.Proof.Gen.KernelIdeal

noncomputable section

namespace Cert.KernelIdeal.Agg

open Cert.KernelIdeal Cert.KernelIdeal.Facts₀ Idealize.ShloMosaic Idealize.SL.Sem

variable {F : FTy → Type} [FloatOps F]

/-- The sources (`row = ![0, 0]`) or the targets (`row = ![1, 0]`) of all edges, the self-loops appended. -/
def endpoints (row : Fin 2 → Nat) (hrow : S2x3200000.Slices row S1x3200000)
    (e : (⟨S2x3200000, .i32⟩ : BufTy).Contents (Elt F)) : (⟨S3300000, .i32⟩ : BufTy).Contents (Elt F) :=
  concatenate S3300000 0 [⟨S3200000, (shapeCast _ (extractStridedSlice S1x3200000 row e hrow) shapeCasts_S1x3200000_S3200000)⟩, ⟨S100000, (iotaInDim S100000 32 0)⟩] concatenates_S3200000_S100000_S3300000_d0

/-- A negative node number is counted from the end: the node count is added to it once. -/
def wrapped (v : (⟨S3300000, .i32⟩ : BufTy).Contents (Elt F)) : (⟨S3300000, .i32⟩ : BufTy).Contents (Elt F) :=
  select (cmpi .slt v (broadcastInDim S3300000 ![] bcast_S_S3300000 (constantI S_ 32 0#32))) (addi v (broadcastInDim S3300000 ![] bcast_S_S3300000 (constantI S_ 32 100000#32))) v

/-- The degree of every node: one for each edge that ends in it. -/
def degree (e : (⟨S2x3200000, .i32⟩ : BufTy).Contents (Elt F)) : (⟨S100000, .f32⟩ : BufTy).Contents (Elt F) :=
  Host.scatterAdd scatter_S100000_S3300000x1_S3300000_n_0_0_1 (broadcastInDim S100000 ![] bcast_S_S100000 (constant S_ .f32 0x00000000#32)) (broadcastInDim S3300000x1 ![0] bcast_S3300000_S3300000x1_0 (endpoints ![1, 0] slices_S2x3200000_S1x3200000_1_0 e)) (broadcastInDim S3300000 ![] bcast_S_S3300000 (constant S_ .f32 0x3F800000#32))

/-- The normalisation of every node: `deg^(-1/2)` where the degree is positive, 0 elsewhere. -/
def invSqrtDegree (e : (⟨S2x3200000, .i32⟩ : BufTy).Contents (Elt F)) : (⟨S100000, .f32⟩ : BufTy).Contents (Elt F) :=
  select (cmpf (F := F) .ogt (degree e) (broadcastInDim S100000 ![] bcast_S_S100000 (constant S_ .f32 0x00000000#32))) (Host.rsqrt (degree e)) (broadcastInDim S100000 ![] bcast_S_S100000 (id (constant S_ .f32 0x00000000#32)))

/-- The weight of every edge: the product of its two ends' normalisations. -/
def edgeWeight (e : (⟨S2x3200000, .i32⟩ : BufTy).Contents (Elt F)) : (⟨S3300000, .f32⟩ : BufTy).Contents (Elt F) :=
  mulf (Host.gather gather_S100000_S3300000x1_S3300000_n_0_n_n_0_1_1 (invSqrtDegree e) (broadcastInDim S3300000x1 ![0] bcast_S3300000_S3300000x1_0 (wrapped (endpoints ![0, 0] slices_S2x3200000_S1x3200000_0_0 e)))) (Host.gather gather_S100000_S3300000x1_S3300000_n_0_n_n_0_1_1 (invSqrtDegree e) (broadcastInDim S3300000x1 ![0] bcast_S3300000_S3300000x1_0 (wrapped (endpoints ![1, 0] slices_S2x3200000_S1x3200000_1_0 e))))

/-- The aggregate: into each target's row, the source's row of `h` times the edge's weight; then the bias on every row. -/
def aggregate (h : (⟨S100000x16, .f32⟩ : BufTy).Contents (Elt F)) (e : (⟨S2x3200000, .i32⟩ : BufTy).Contents (Elt F))
    (b : (⟨S16, .f32⟩ : BufTy).Contents (Elt F)) : (⟨S100000x16, .f32⟩ : BufTy).Contents (Elt F) :=
  addf (Host.scatterAdd scatter_S100000x16_S3300000x1_S3300000x16_1_0_0_1 (broadcastInDim S100000x16 ![] bcast_S_S100000x16 (constant S_ .f32 0x00000000#32)) (broadcastInDim S3300000x1 ![0] bcast_S3300000_S3300000x1_0 (endpoints ![1, 0] slices_S2x3200000_S1x3200000_1_0 e)) (mulf (Host.gather gather_S100000x16_S3300000x1_S3300000x16_1_0_n_n_0_1_116 h (broadcastInDim S3300000x1 ![0] bcast_S3300000_S3300000x1_0 (wrapped (endpoints ![0, 0] slices_S2x3200000_S1x3200000_0_0 e)))) (broadcastInDim S3300000x16 ![0, 1] bcast_S3300000x1_S3300000x16_0_1 (broadcastInDim S3300000x1 ![0] bcast_S3300000_S3300000x1_0 (edgeWeight e))))) (broadcastInDim S100000x16 ![0, 1] bcast_S1x16_S100000x16_0_1 (broadcastInDim S1x16 ![1] bcast_S16_S1x16_1 b))

end Cert.KernelIdeal.Agg

end
-- ==== Proof.KernelValue.lean ====
/-
  The idealized kernel program's result as one function of its arguments.

  The run goes through five stretches: the first kernel launch, three stretches of host operations (the middle one the
  body of the outlined `where`), the second kernel launch. Reading the contents at each boundary back to the launch:
  the first region leaves `xw x w` in its result array and touches nothing else; the host stretches compute the
  aggregation `aggregate` of that array, the edge list and the bias; the second region leaves in the result array
  `head` of the aggregate, the head's weight and its bias. No host operation and no region writes an argument.
-/
import proofs.«104408_j63780264346286_1_alg».proof.Proof.Gen.KernelIdeal.Frame
import proofs.«104408_j63780264346286_1_alg».proof.Proof.Region0
import proofs.«104408_j63780264346286_1_alg».proof.Proof.Region1
import proofs.«104408_j63780264346286_1_alg».proof.Proof.Aggregate
import Idealize.ShloMosaic.Lib.StableHlo.Run

set_option maxRecDepth 16384

noncomputable section

namespace Cert.KernelIdeal.Val

open Cert.KernelIdeal Cert.KernelIdeal.Gen Cert.KernelIdeal.Agg Cert.Spec
open Idealize.ShloMosaic Idealize.ShloMosaic.TcCoe Idealize.SL.Sem Idealize.ShloMosaic.StableHlo

variable (m : (ℓ : Loc nD τ sig) → Buf (Elt Ideal) ℓ) (ρ : Dev nD → PrngReg)

/-- After the first region its result array holds the feature transform of the launch's node features and weight. -/
theorem transformed (c : Dev nD) :
    W1 m ρ c (Proc.devRef .tc main_v0) = xw (m ((c : Thread nD τ).loc main_arg0)) (m ((c : Thread nD τ).loc main_arg2)) :=
  (W1_arr m ρ c 2).trans (Reg0.final (V0 m ρ) c)

/-- The first region leaves the edge list as launched. -/
theorem edges_kept (c : Dev nD) : W1 m ρ c (Proc.devRef .tc main_arg1) = m ((c : Thread nD τ).loc main_arg1) :=
  W1_of_ne m ρ c main_arg1 (by decide)

/-- The first region leaves the convolution's bias as launched. -/
theorem bias_kept (c : Dev nD) : W1 m ρ c (Proc.devRef .tc main_arg3) = m ((c : Thread nD τ).loc main_arg3) :=
  W1_of_ne m ρ c main_arg3 (by decide)

set_option maxHeartbeats 4000000 in
/-- The three host stretches, run from any contents `X`, leave in the array the second region reads the aggregation
    of what `X` holds in the first region's result array, the edge list and the bias (at any float instance: the
    operations are the same one for one). -/
theorem chain_after {F : FTy → Type} [FloatOps F] (X : Valuation τ sig (Elt F)) :
    StableHlo.after hostOps1_2 (StableHlo.after hostOps1_1 (StableHlo.after hostOps1 X)) (Proc.devRef .tc main_v46)
      = aggregate (F := F) (X (Proc.devRef .tc main_v0)) (X (Proc.devRef .tc main_arg1)) (X (Proc.devRef .tc main_arg3)) := by
  after_results_simp
  repeat (first
    | rw [nullary_result] | rw [unary_result] | rw [binary_result] | rw [reshape_result]
    | (rw [nullary_result_ne]; rotate_left; decide)
    | (rw [unary_result_ne]; rotate_left; decide)
    | (rw [binary_result_ne]; rotate_left; decide)
    | (rw [reshape_result_ne]; rotate_left; decide))
  unfold aggregate edgeWeight invSqrtDegree degree wrapped endpoints
  rfl

/-- The three host stretches compute the aggregation of what the first region left. -/
theorem aggregated (c : Dev nD) :
    W4 m ρ c (Proc.devRef .tc main_v46)
      = aggregate (W1 m ρ c (Proc.devRef .tc main_v0)) (W1 m ρ c (Proc.devRef .tc main_arg1)) (W1 m ρ c (Proc.devRef .tc main_arg3)) :=
  chain_after (W1 m ρ c)

/-- The head's weight reaches the second region as launched. -/
theorem headWeight_kept (c : Dev nD) : W4 m ρ c (Proc.devRef .tc main_arg4) = m ((c : Thread nD τ).loc main_arg4) :=
  ((W5_arr m ρ c 1).trans (((dat1 (V4 m ρ) c).arrAt_in 1 rfl _).trans (A_eq1 (V4 m ρ) c 1))).symm.trans (W5_main_arg4 m ρ c)

/-- The head's bias reaches the second region as launched. -/
theorem headBias_kept (c : Dev nD) : W4 m ρ c (Proc.devRef .tc main_arg5) = m ((c : Thread nD τ).loc main_arg5) :=
  ((W5_arr m ρ c 2).trans (((dat1 (V4 m ρ) c).arrAt_in 2 rfl _).trans (A_eq1 (V4 m ρ) c 2))).symm.trans (W5_main_arg5 m ρ c)

/-- The result array at the end of the run, as a function of the launch's arguments. -/
theorem result (c : Dev nD) :
    W5 m ρ c (Proc.devRef .tc main_v47)
      = head (aggregate (xw (m ((c : Thread nD τ).loc main_arg0)) (m ((c : Thread nD τ).loc main_arg2))) (m ((c : Thread nD τ).loc main_arg1)) (m ((c : Thread nD τ).loc main_arg3)))
          (m ((c : Thread nD τ).loc main_arg4)) (m ((c : Thread nD τ).loc main_arg5)) := by
  refine (W5_arr m ρ c 3).trans ((Reg1.final (V4 m ρ) c).trans ?_)
  show head (W4 m ρ c (Proc.devRef .tc main_v46)) (W4 m ρ c (Proc.devRef .tc main_arg4)) (W4 m ρ c (Proc.devRef .tc main_arg5)) = _
  rw [aggregated m ρ c, transformed m ρ c, edges_kept m ρ c, bias_kept m ρ c, headWeight_kept m ρ c, headBias_kept m ρ c]

end Cert.KernelIdeal.Val

end
-- ==== Proof.RefValue.lean ====
/-
  The idealized reference's result is the same function of the arguments as the kernel program's.

  The reference computes `x · w` by one host product, applies the same aggregation, and finishes with one host
  product by the head's weight plus the broadcast bias. On the extended reals a host product read at an entry is the
  sum over the contracted axis of left times right, so the first product is `xw` and the last two operations are
  `head`; the operations between them are, one for one, those of `aggregate`.
-/
import proofs.«104408_j63780264346286_1_alg».proof.Proof.RefRead
import proofs.«104408_j63780264346286_1_alg».proof.Proof.Aggregate
import proofs.«104408_j63780264346286_1_alg».proof.Proof.Spec

set_option maxRecDepth 16384

noncomputable section

namespace Cert.ReferenceIdeal.RefValue

open Cert.ReferenceIdeal Cert.ReferenceIdeal.ReadP Cert.Spec
open Idealize.ShloMosaic Idealize.SL.Sem

/-- The reference's first product is the feature transform. -/
theorem product_eq (x0 : (⟨S100000x256, .f32⟩ : BufTy).Contents (Elt Ideal)) (x2 : (⟨S256x16, .f32⟩ : BufTy).Contents (Elt Ideal)) :
    val_main_v30 (F := Ideal) x0 x2 = xw x0 x2 :=
  funext fun i => val_main_v30_apply x0 x2 i

set_option maxHeartbeats 4000000 in
/-- The reference's operations between its two products are the aggregation of its first product. -/
theorem chain_eq (x0 : (⟨S100000x256, .f32⟩ : BufTy).Contents (Elt Ideal)) (x1 : (⟨S2x3200000, .i32⟩ : BufTy).Contents (Elt Ideal))
    (x2 : (⟨S256x16, .f32⟩ : BufTy).Contents (Elt Ideal)) (x3 : (⟨S16, .f32⟩ : BufTy).Contents (Elt Ideal)) :
    val_main_v46 (F := Ideal) x0 x1 x2 x3 = Cert.KernelIdeal.Agg.aggregate (val_main_v30 (F := Ideal) x0 x2) x1 x3 := by
  generalize hh : val_main_v30 (F := Ideal) x0 x2 = h
  unfold Cert.KernelIdeal.Agg.aggregate Cert.KernelIdeal.Agg.edgeWeight Cert.KernelIdeal.Agg.invSqrtDegree Cert.KernelIdeal.Agg.degree Cert.KernelIdeal.Agg.wrapped Cert.KernelIdeal.Agg.endpoints
  subst hh
  rfl

/-- The reference's result, entry by entry, is the head of the aggregate of the transform. -/
theorem result_eq (x0 : (⟨S100000x256, .f32⟩ : BufTy).Contents (Elt Ideal)) (x1 : (⟨S2x3200000, .i32⟩ : BufTy).Contents (Elt Ideal))
    (x2 : (⟨S256x16, .f32⟩ : BufTy).Contents (Elt Ideal)) (x3 : (⟨S16, .f32⟩ : BufTy).Contents (Elt Ideal))
    (x4 : (⟨S16x1, .f32⟩ : BufTy).Contents (Elt Ideal)) (x5 : (⟨S1, .f32⟩ : BufTy).Contents (Elt Ideal)) :
    val_main_v50 (F := Ideal) x0 x1 x2 x3 x4 x5 = head (Cert.KernelIdeal.Agg.aggregate (xw x0 x2) x1 x3) x4 x5 := by
  funext i
  rw [val_main_v50_apply, val_main_v47_apply, val_main_v49_apply, val_main_v48_apply, chain_eq, product_eq]
  show (∑ k : Fin 16, Cert.KernelIdeal.Agg.aggregate (xw x0 x2) x1 x3 (lidx_main_v47 i k) * x4 (ridx_main_v47 i k)) + x5 (idx_main_v48 (idx_main_v49 i)) = _
  unfold head
  exact congrArg _ (congrArg x5 (one_idx_eq _ _))

end Cert.ReferenceIdeal.RefValue

end
-- ==== Proof.lean ====
/-
  The graph-convolution regression kernel computes what its reference computes, over the extended reals.

  The kernel program is: a kernel launch for the feature transform `h = x · w` (ten row bands of 10000 nodes), the
  graph aggregation on the host (self-loops, symmetric degree normalisation, gather, scatter-add, bias), and a
  kernel launch for the regression head `out · v + b` (four row bands of 25000 nodes). The reference is the same
  aggregation between two host products. At the ideal instance rounding the operands of a product to a narrower
  format is the identity and a product into a zero accumulator is the plain sum, so both programs end with

      head (aggregate (xw x w) e b_conv) w_fc b_fc

  in their result array (`Proof/Spec.lean`, `Proof/Aggregate.lean`): the kernel side is `Proof/KernelValue.lean` over
  the two regions' values (`Proof/Region0.lean`, `Proof/Region1.lean`, `Proof/Payloads.lean`), the reference side
  `Proof/RefValue.lean`. Only sums of products are compared, entry by entry and in the same order, so the
  finiteness of the inputs is never used. The idealized kernel program is the kernel program's own text read at the ideal instance, so `preserves` has nothing to state.
-/
import proofs.«104408_j63780264346286_1_alg».proof.Defs
import proofs.«104408_j63780264346286_1_alg».proof.Proof.Gen.Kernel
import proofs.«104408_j63780264346286_1_alg».proof.Proof.Gen.Kernel.Frame
import proofs.«104408_j63780264346286_1_alg».proof.Proof.Gen.KernelIdeal
import proofs.«104408_j63780264346286_1_alg».proof.Proof.Gen.KernelIdeal.Frame
import proofs.«104408_j63780264346286_1_alg».proof.Proof.Gen.ReferenceIdeal
import proofs.«104408_j63780264346286_1_alg».proof.Proof.Gen.Pre_finite_inputs
import proofs.«104408_j63780264346286_1_alg».proof.Proof.KernelRun
import proofs.«104408_j63780264346286_1_alg».proof.Proof.KernelValue
import proofs.«104408_j63780264346286_1_alg».proof.Proof.RefRun
import proofs.«104408_j63780264346286_1_alg».proof.Proof.RefRead
import proofs.«104408_j63780264346286_1_alg».proof.Proof.RefValue
import Idealize.ShloMosaic.Adequacy
import Idealize.ShloMosaic.Init

noncomputable section

namespace Cert.Proof

open Idealize.ShloMosaic Idealize.ShloMosaic.TcCoe Idealize.SL.Sem

/-- The word-level kernel program runs and keeps its arguments. -/
theorem frame_k : Cert.frame_Kernel := fun m ρ _ => Cert.Kernel.Gen.frame m ρ

/-- The idealized kernel program runs and keeps its arguments. -/
theorem frame_ki : Cert.frame_KernelIdeal := fun m ρ _ => Cert.KernelIdeal.Gen.frame m ρ

/-- The idealized reference runs and keeps its arguments: its run with the result dropped. -/
theorem frame_ri : Cert.frame_ReferenceIdeal := fun m ρ _ =>
  (θ_run Cert.ReferenceIdeal.defs _ _).mono (fun _ h c => (h c).2) (Cert.ReferenceIdeal.ValueP.run (F := Ideal) m ρ)

/-- Both idealized programs end with the head of the aggregate of the feature transform of the same arguments. -/
theorem algebraic : Cert.algebraic_KernelIdeal_ReferenceIdeal := by
  intro m ρ m' ρ' _ hagree
  refine ⟨fun c => Cert.Spec.head (Cert.KernelIdeal.Agg.aggregate
      (Cert.Spec.xw (m ((c.tc : Thread Cert.KernelIdeal.nD Cert.KernelIdeal.τ).loc Cert.KernelIdeal.main_arg0)) (m ((c.tc : Thread Cert.KernelIdeal.nD Cert.KernelIdeal.τ).loc Cert.KernelIdeal.main_arg2)))
      (m ((c.tc : Thread Cert.KernelIdeal.nD Cert.KernelIdeal.τ).loc Cert.KernelIdeal.main_arg1)) (m ((c.tc : Thread Cert.KernelIdeal.nD Cert.KernelIdeal.τ).loc Cert.KernelIdeal.main_arg3)))
      (m ((c.tc : Thread Cert.KernelIdeal.nD Cert.KernelIdeal.τ).loc Cert.KernelIdeal.main_arg4)) (m ((c.tc : Thread Cert.KernelIdeal.nD Cert.KernelIdeal.τ).loc Cert.KernelIdeal.main_arg5)), ?_, ?_⟩
  · exact (θ_run Cert.KernelIdeal.defs _ _).mono (fun r h c => ⟨(h c).1.trans (Cert.KernelIdeal.Val.result m ρ c), (h c).2⟩)
      (Cert.KernelIdeal.Named.run_named (F := Ideal) m ρ)
  · refine (θ_run Cert.ReferenceIdeal.defs _ _).mono (fun r h c => ⟨(h c).1.trans ?_, (h c).2⟩)
      (Cert.ReferenceIdeal.ValueP.run (F := Ideal) m' ρ')
    rw [Cert.ReferenceIdeal.ReadP.val_main_v50_eq, Cert.ReferenceIdeal.RefValue.result_eq,
      (hagree c).1, (hagree c).2.1, (hagree c).2.2.1, (hagree c).2.2.2.1, (hagree c).2.2.2.2.1, (hagree c).2.2.2.2.2]

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
